-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2048x1024 .f32) (main_arg1 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S8192x1024_S4x2048x1024 : S8192x1024.ShapeCasts S4x2048x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x1024, .f32⟩
  | .hbm, ⟨3, _⟩ => ⟨S_, .f32⟩
  | .hbm, ⟨4, _⟩ => ⟨S4x2048x1024, .f32⟩
  | .hbm, ⟨5, _⟩ => ⟨S4x2048x1024, .i1⟩
  | .hbm, ⟨6, _⟩ => ⟨S4x2048x1024, .f32⟩
  | .hbm, ⟨7, _⟩ => ⟨S_, .f32⟩
  | .hbm, ⟨8, _⟩ => ⟨S4x2048x1024, .f32⟩
  | .hbm, ⟨9, _⟩ => ⟨S4x2048x1024, .f32⟩
  | .hbm, ⟨10, _⟩ => ⟨S_, .f32⟩
  | .hbm, ⟨11, _⟩ => ⟨S4x2048x1024, .f32⟩
  | .hbm, ⟨12, _⟩ => ⟨S4x2048x1024, .f32⟩
  | .hbm, ⟨13, _⟩ => ⟨S_, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S4x2048x1024 : S_.BroadcastsInDim S4x2048x1024 (![] : Fin 0 → Fin S4x2048x1024.rank)
  dot_S4x2048x1024_S1024x1024_S4x2048x1024_2_0_01_1_n_n_wf : DotDims.WF S4x2048x1024 S1024x1024 S4x2048x1024 [2] [0] [0, 1] [1] [] []

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf

class Facts : Prop extends Facts₀ where

variable [Facts]
-- ==== Proof.Spec.lean ====
/-
  The mathematics shared by the two programs, with no program in sight.

  Both compute, for every batch b, row s and column n,

      z(b, s, n) = log (max (y + ε, δ)),   y = ∑ₖ x(b, s, k) · w(k, n),

  with ε and δ the two positive f32 literals both programs spell by the same words.  The kernel does it on
  the flattened [8192, 1024] view of x, 512 rows at a time; the reference additionally multiplies z by the
  0/1 mask (y > 0) and by its complement and adds the two products.  On the extended reals
  z · b + z · (1 - b) = z for b ∈ {0, 1} and EVERY z, infinite or not (0 · ±∞ = 0 there), so no finiteness
  of the inputs is needed.
-/
import Idealize.ShloMosaic.PureOps.Ideal
import Idealize.ShloMosaic.PureOps.Ideal.Laws
import Idealize.ShloMosaic.PureOps.IdealRules
import Idealize.ShloMosaic.Lib.ValueIdx
import Idealize.ShloMosaic.Lib.Pipeline.Value

noncomputable section

open scoped BigOperators

namespace Cert.LogFloor

open Idealize.ShloMosaic Idealize.ShloMosaic.ValueIdx

/-- One element's way from the matrix product to the result: add ε, floor at δ, take the logarithm. -/
def flog (y : EReal) : EReal :=
  Ideal.log (max (y + Ideal.ofBits .f32 0x3727C5AC#32) (Ideal.ofBits .f32 0x2B8CBCCC#32))

/-- The f32 word of 1.0 denotes the extended real 1. -/
theorem one_f32 : Ideal.ofBits .f32 0x3F800000#32 = 1 := IdealRules.sign_bit.ideal_onePat .f32

/-- Combining a value with itself through a 0/1 mask and its complement gives the value back: for a one-bit
    `b` read as the number 0 or 1, `z · b + z · (1 - b) = z` at every extended real `z`. -/
theorem mask_combine (z : EReal) (b : BitVec 1) :
    z * ((b.toNat : ℝ) : EReal) + z * (1 - ((b.toNat : ℝ) : EReal)) = z := by
  have hb : b = 0#1 ∨ b = 1#1 := by revert b; decide
  rcases hb with rfl | rfl
  · simp
  · have h1 : ((1#1 : BitVec 1).toNat : ℝ) = 1 := by norm_num
    rw [h1, EReal.coe_one]
    have h0 : (1 : EReal) - 1 = 0 := by rw [← EReal.coe_one, ← EReal.coe_sub]; simp
    rw [h0, mul_one, mul_zero, add_zero]

/-- The flattened form: rows r of the [8192, 1024] view against the columns of w. -/
def rows (X : (⟨2, ![8192, 1024]⟩ : Shape).Idx → EReal) (W : (⟨2, ![1024, 1024]⟩ : Shape).Idx → EReal) :
    (⟨2, ![8192, 1024]⟩ : Shape).Idx → EReal :=
  fun j => flog (∑ k : Fin 1024, X (ix2 (j 0) k) * W (ix2 k (j 1)))

/-- The batched form: the same, with the row named by batch and position. -/
def batched (x : (⟨3, ![4, 2048, 1024]⟩ : Shape).Idx → EReal) (W : (⟨2, ![1024, 1024]⟩ : Shape).Idx → EReal) :
    (⟨3, ![4, 2048, 1024]⟩ : Shape).Idx → EReal :=
  fun i => flog (∑ k : Fin 1024, x (ix3 (i 0) (i 1) k) * W (ix2 k (i 2)))

/-- Flattening x to [8192, 1024], taking `rows`, and unflattening is `batched`: row 2048·b + s of the flat view is
    row s of batch b, and the columns are untouched. -/
theorem unflatten_rows_flatten (x : (⟨3, ![4, 2048, 1024]⟩ : Shape).Idx → EReal) (W : (⟨2, ![1024, 1024]⟩ : Shape).Idx → EReal)
    (h1 : (⟨3, ![4, 2048, 1024]⟩ : Shape).ShapeCasts ⟨2, ![8192, 1024]⟩)
    (h2 : (⟨2, ![8192, 1024]⟩ : Shape).ShapeCasts ⟨3, ![4, 2048, 1024]⟩) :
    shapeCast ⟨3, ![4, 2048, 1024]⟩ (rows (shapeCast ⟨2, ![8192, 1024]⟩ x h1) W) h2 = batched x W := by
  funext i
  obtain ⟨b, s, n, rfl⟩ : ∃ (b : Fin 4) (s : Fin 2048) (n : Fin 1024), i = ix3 b s n := ⟨i 0, i 1, i 2, eq_ix3 i⟩
  have hr : 2048 * b.val + s.val < 8192 := by have := b.isLt; have := s.isLt; omega
  rw [shapeCast_apply _ h2 (ix3 b s n) (ix2 ⟨2048 * b.val + s.val, hr⟩ n) (by
    rw [Shape.rowMajor_val_two, Shape.rowMajor_val_three]
    show (2048 * b.val + s.val) * 1024 + n.val = (b.val * 2048 + s.val) * 1024 + n.val
    omega)]
  unfold rows batched
  congr 1
  refine Finset.sum_congr rfl fun k _ => ?_
  congr 1
  exact shapeCast_apply _ h1 (ix2 ⟨2048 * b.val + s.val, hr⟩ k) (ix3 b s k) (by
    rw [Shape.rowMajor_val_two, Shape.rowMajor_val_three]
    show (b.val * 2048 + s.val) * 1024 + k.val = (2048 * b.val + s.val) * 1024 + k.val
    omega)

end Cert.LogFloor

end
-- ==== Proof.RefValue.lean ====
/-
  The reference, read at an index.  Its last stage is z · mask + z · (1 - mask) with z = log (max (y + ε, δ)),
  y the contraction of x's last axis with w's first and mask the bit (y > 0) converted to a float.  The two
  branches carry the same z (the same words ε and δ), so the mask law of the specification folds the sum to z.
-/
import proofs.«120948_j19490561589868_1_alg».proof.Proof.Gen.ReferenceIdeal.Run
import proofs.«120948_j19490561589868_1_alg».proof.Proof.Gen.ReferenceIdeal.Read
import proofs.«120948_j19490561589868_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.LogFloor

/-- The contraction reads x along its last axis at the result's batch and row … -/
theorem lidx_eq (i : S4x2048x1024.Idx) (k : Fin 1024) : lidx_main_v0 i k = ix3 (i 0) (i 1) k :=
  funext fun a => Fin.ext (by match a with | ⟨0, _⟩ => rfl | ⟨1, _⟩ => rfl | ⟨2, _⟩ => rfl)

/-- … and w along its first axis at the result's column. -/
theorem ridx_eq (i : S4x2048x1024.Idx) (k : Fin 1024) : ridx_main_v0 i k = ix2 k (i 2) :=
  funext fun a => Fin.ext (by match a with | ⟨0, _⟩ => rfl | ⟨1, _⟩ => rfl)

/-- The reference's result is the batched specification: both branches of the mask-combine hold the same
    logarithm, and the mask and its complement add to one. -/
theorem result_eq (x : (⟨S4x2048x1024, .f32⟩ : BufTy).Contents (Elt Ideal)) (w : (⟨S1024x1024, .f32⟩ : BufTy).Contents (Elt Ideal)) :
    val_main_v18 (F := Ideal) x w = batched x w := by
  funext i
  rw [val_main_v18_apply, val_main_v16_apply, val_main_v17_apply, val_main_v12_apply, val_main_v15_apply,
    val_main_v11_apply, val_main_v14_apply, val_main_v7_apply, val_main_v9_apply, val_main_v5_apply, val_main_v3_apply,
    val_main_v2_apply, val_main_v4_apply, val_main_v6_apply, val_main_v8_apply, val_main_v10_apply, val_main_v13_apply,
    val_main_v1_apply, val_main_cst_apply, val_main_cst_0_apply, val_main_cst_1_apply, val_main_cst_2_apply,
    val_main_cst_3_apply, val_main_cst_4_apply, val_main_v0_apply]
  simp only [Ideal.addf_def, Ideal.mulf_def, Ideal.subf_def, Ideal.maximumf_def, Ideal.hostUnary_log_def, Ideal.ofBits_def,
    lidx_eq, ridx_eq, one_f32]
  exact mask_combine _ _

end Cert.ReferenceIdeal.RefValue

end
-- ==== Proof.PayValue.lean ====
/-
  What the kernel body stores, read at one element.  The body loads a [512, 1024] block of rows and the whole
  [1024, 1024] matrix, multiplies them into a zero accumulator, adds ε, floors at δ and takes the logarithm.
  At the extended reals the two narrowing format changes are the identity and the product into zero is the plain
  sum over the contracted axis, so element (p, q) of the stored block is `flog` of row p against column q.
-/
import proofs.«120948_j19490561589868_1_alg».proof.Proof.Gen.KernelIdeal.Skeleton
import proofs.«120948_j19490561589868_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx Cert.LogFloor

/-- The left operand is read at the result's row … -/
theorem mm_lhs_0 (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- … and at the contraction index along its columns; -/
theorem mm_lhs_1 (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
/-- the right operand at the contraction index along its rows … -/
theorem mm_rhs_0 (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
/-- … and at the result's column. -/
theorem mm_rhs_1 (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The block product into a zero accumulator, at element (p, q): row p of the left block against column q of the
    right one. -/
theorem matmul_at {φ₁ φ₂ : FTy} (a : FVec Ideal S512x1024 φ₁) (b : FVec Ideal S1024x1024 φ₂) (p : Fin 512) (q : Fin 1024) :
    matmul dot_S512x1024_S1024x1024_S512x1024_1_0_0_1_n_n none a b (constant S512x1024 .f32 0x00000000#32) (ix2 p q)
      = ∑ k : Fin 1024, a (ix2 p k) * b (ix2 k q) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact mm_lhs_0 _ _
    | ⟨1, _⟩ => exact (mm_lhs_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (mm_rhs_0 _ _).trans hk
    | ⟨1, _⟩ => exact mm_rhs_1 _ _)
  rw [el, er]

/-- The stored block at an element: `flog` of the loaded rows' block against the loaded matrix. -/
theorem pay_at (x0 : Vec Ideal S512x1024 .f32) (x1 : Vec Ideal S1024x1024 .f32) (j : S512x1024.Idx) :
    k0_pay1 x0 x1 j = flog (∑ k : Fin 1024, x0 (ix2 (j 0) k) * x1 (ix2 k (j 1))) := by
  obtain ⟨p, q, rfl⟩ : ∃ (p : Fin 512) (q : Fin 1024), j = ix2 p q := ⟨j 0, j 1, eq_ix2 j⟩
  unfold k0_pay1 flog
  show Ideal.log (max (matmul (F := Ideal) dot_S512x1024_S1024x1024_S512x1024_1_0_0_1_n_n none _ _ (constant S512x1024 .f32 0x00000000#32) (ix2 p q) + _) _) = _
  rw [matmul_at]
  simp only [truncf_apply, shapeCast_self]
  rfl

end Cert.KernelIdeal.Hand

end
-- ==== Proof.KernelValue.lean ====
/-
  The kernel's run, read as a value.  @main flattens x to [8192, 1024], runs the body over 16 grid points and
  unflattens the result.  Point t loads rows 512·t … 512·t + 511 of the flat x and the whole matrix, and writes back
  the same rows of the result; the 16 row blocks tile the [8192, 1024] array, so after the last point it holds
  `rows` of the flat x and the matrix, and the final reshape turns that into `batched` of the arguments.
-/
import proofs.«120948_j19490561589868_1_alg».proof.Proof.Gen.KernelIdeal.Frame
import proofs.«120948_j19490561589868_1_alg».proof.Proof.PayValue
import Idealize.ShloMosaic.Lib.StableHlo.Run
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx Cert.LogFloor
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the rows' window and the result's window sit at the same block row, in
    block column 0; the matrix's window never moves. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 16 block rows of the result is some point's. -/
theorem idx_onto : ∀ (q0 : Fin 16), ∃ t : Fin cfg0.N, win0_2.index t = ![q0.val, 0] :=
  (by decide +kernel : ∀ (q0 : Fin 16), ∃ t : Fin grid0.N, win0_2.index t = ![q0.val, 0])

/-- The rows' block at point `t`, at local element `y`, is the flat x at row (block row)·512 + y₀, column y₁. -/
theorem xblk_apply (c : Dev nD) (t : Fin cfg0.N) (y : S512x1024.Idx) (i : S8192x1024.Idx)
    (h0 : (i 0).val = win0_2.index t (0 : Fin 2) * 512 + (y 0).val) (h1 : (i 1).val = (y 1).val) :
    (iblk m c 0 t : Vec Ideal S512x1024 .f32) y = (V m c main_v0 : S8192x1024.Idx → EReal) i := by
  obtain ⟨e0, e1, e2, e3, e4⟩ := idx_facts t
  unfold iblk
  rw [View.read_apply]
  show V m c main_v0 _ = V m c main_v0 _
  congr 1
  funext a
  apply Fin.ext
  match a with
  | ⟨0, _⟩ => show win0_0.index t (0 : Fin 2) * 512 + 1 * (y 0).val = (i 0).val; omega
  | ⟨1, _⟩ => show win0_0.index t (1 : Fin 2) * 1024 + 1 * (y 1).val = (i 1).val; omega

/-- The matrix's block at every point is the matrix. -/
theorem wblk_apply (c : Dev nD) (t : Fin cfg0.N) (y : S1024x1024.Idx) :
    (iblk m c 1 t : Vec Ideal S1024x1024 .f32) y = (V m c main_arg1 : S1024x1024.Idx → EReal) y := by
  obtain ⟨e0, e1, e2, e3, e4⟩ := idx_facts t
  unfold iblk
  rw [View.read_apply]
  show V m c main_arg1 _ = V m c main_arg1 _
  congr 1
  funext a
  apply Fin.ext
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- What point `t` writes back is its block of `rows` of the flat x and the matrix as the region finds them. -/
theorem flushed_eq (c : Dev nD) (t : Fin cfg0.N) :
    (dats m 0 c).flushed 2 t = ((cfg0.win 2).blk t).view.read (Elt Ideal) (rows (V m c main_v0) (V m c main_arg1)) := by
  show (cfg0.win 2).cut (grid0.coords t) ((dats m 0 c).after 2 t) = _
  rw [after0_2]
  unfold out0_2
  rw [View.canon_unit_zero hz]
  simp only [View.ld_unit_zero (S := S512x1024) hz, View.ld_unit_zero (S := S1024x1024) hz]
  obtain ⟨e0, e1, e2, e3, e4⟩ := idx_facts t
  funext j
  show k0_pay1 (iblk m c 0 t) (iblk m c 1 t) j = rows (V m c main_v0) (V m c main_arg1) (((cfg0.win 2).blk t).view.emb j)
  refine (pay_at (iblk m c 0 t) (iblk m c 1 t) j).trans ?_
  unfold rows
  congr 1
  refine Finset.sum_congr rfl fun k _ => ?_
  congr 1
  · refine xblk_apply m c t (ix2 (j 0) k) _ ?_ ?_
    · show win0_2.index t (0 : Fin 2) * 512 + 1 * (j 0).val = win0_2.index t (0 : Fin 2) * 512 + (j 0).val; omega
    · rfl
  · refine (wblk_apply m c t (ix2 k (j 1))).trans ?_
    congr 1
    funext a
    apply Fin.ext
    match a with
    | ⟨0, _⟩ => rfl
    | ⟨1, _⟩ => show (j 1).val = win0_2.index t (1 : Fin 2) * 1024 + 1 * (j 1).val; omega

/-- An index of the result array is in point `t`'s block iff each coordinate is in the block's range. -/
theorem mem_blk (t : Fin cfg0.N) (i : S8192x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v1).slice (win0_2.rect t)).set ↔ _
  rw [View.set_slice_whole, Rect.mem_set_unit]
  exact Iff.rfl

/-- Row r of the result is written back by the point whose block row is r / 512. -/
theorem cover (i : S8192x1024.Idx) : ∃ t : Fin cfg0.N, (cfg0.win 2).flush t = true ∧ i ∈ ((cfg0.win 2).blk t).view.set := by
  have hi0 : (i 0).val < 8192 := (i 0).isLt
  have hi1 : (i 1).val < 1024 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The result array after the last point. -/
theorem final (c : Dev nD) : (dats m 0 c).arrAt 2 cfg0.N = rows (V m c main_v0) (V m c main_arg1) :=
  (dats m 0 c).arrAt_eq_of_cover 2 (rows (V m c main_v0) (V m c main_arg1)) (fun t _ => flushed_eq m c t) cover

/-- The region finds the flat x: the reshape of the first argument. -/
theorem V_main_v0 (c : Dev nD) :
    (V m c main_v0 : S8192x1024.Idx → EReal) = shapeCast S8192x1024 (m ((c : Thread nD τ).loc main_arg0)) Facts₀.shapeCasts_S4x2048x1024_S8192x1024 := by
  show StableHlo.after hostOps0 (fun b => m (c, b)) (Proc.devRef .tc main_v0) = _
  after_results
  rfl

/-- After the region the last line unflattens the result array. -/
theorem tail_v2 (c : Dev nD) :
    Pipeline.afterTail₀ cfgs (dats m) 0 (V0 m) [hostOps1] c main_v2
      = shapeCast S4x2048x1024 ((dats m 0 c).arrAt 2 cfg0.N) Facts₀.shapeCasts_S8192x1024_S4x2048x1024 := by
  unfold Pipeline.afterTail₀
  show StableHlo.after hostOps1 _ (Proc.devRef .tc main_v2) = _
  after_results
  exact congrArg (fun A => shapeCast S4x2048x1024 A Facts₀.shapeCasts_S8192x1024_S4x2048x1024)
    (Pipeline.withArrays_arr spec0 launch0.win.arr_inj c (V0 m c) (fun w => (dats m 0 c).arrAt w cfg0.N) 2)

/-- What the run leaves in the result: the batched specification of the two arguments. -/
theorem result (c : Dev nD) :
    Pipeline.afterTail₀ cfgs (dats m) 0 (V0 m) [hostOps1] c main_v2
      = batched (m ((c : Thread nD τ).loc main_arg0)) (m ((c : Thread nD τ).loc main_arg1)) := by
  rw [tail_v2, final, V_main_v0, V_main_arg1]
  exact unflatten_rows_flatten _ _ _ _

/-- The run, read: the result at `batched` of the arguments, the arguments unchanged. -/
theorem run : θ_run defs (onTc (τ := τ) (main (F := Ideal))) ⟨m, fun _ => 0, ρ⟩ fun r => ∀ c : Dev nD,
      r.2.mem ((c.tc : Thread nD τ).loc main_v2) = batched (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 (Pipeline.mem_restRefs_of main_v2 (by decide) (by decide))).trans (result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩) (run_main m ρ)

end Cert.KernelIdeal.Hand

end
-- ==== Proof.lean ====
/-
  The kernel computes log (max (x · w + ε, δ)) on the flattened rows of x, block by block; the reference computes the
  same logarithm twice and recombines the two copies through the 0/1 mask (x · w > 0) and its complement.  Over the
  extended reals z · b + z · (1 - b) = z for a one-bit b and every z, so both results are the one function `batched`
  of the arguments (Proof/Spec.lean), index by index, with no use of the inputs' finiteness.

  Frames: the two kernel programs' are the generated frame certificates; the reference's is its generated run with the
  result dropped.  The idealization rewrote nothing, so `preserves` is trivial.  `algebraic`: the kernel's run read as
  a value (Proof/KernelValue.lean, over Proof/PayValue.lean) beside the reference's run read at an index
  (Proof/RefValue.lean).
-/
import proofs.«120948_j19490561589868_1_alg».proof.Defs
import proofs.«120948_j19490561589868_1_alg».proof.Proof.Gen.Kernel
import proofs.«120948_j19490561589868_1_alg».proof.Proof.Gen.Kernel.Skeleton
import proofs.«120948_j19490561589868_1_alg».proof.Proof.Gen.Kernel.Launch
import proofs.«120948_j19490561589868_1_alg».proof.Proof.Gen.Kernel.Points
import proofs.«120948_j19490561589868_1_alg».proof.Proof.Gen.Kernel.Frame
import proofs.«120948_j19490561589868_1_alg».proof.Proof.Gen.KernelIdeal
import proofs.«120948_j19490561589868_1_alg».proof.Proof.Gen.KernelIdeal.Skeleton
import proofs.«120948_j19490561589868_1_alg».proof.Proof.Gen.KernelIdeal.Launch
import proofs.«120948_j19490561589868_1_alg».proof.Proof.Gen.KernelIdeal.Points
import proofs.«120948_j19490561589868_1_alg».proof.Proof.Gen.KernelIdeal.Frame
import proofs.«120948_j19490561589868_1_alg».proof.Proof.Gen.ReferenceIdeal
import proofs.«120948_j19490561589868_1_alg».proof.Proof.Gen.ReferenceIdeal.Run
import proofs.«120948_j19490561589868_1_alg».proof.Proof.Gen.ReferenceIdeal.Read
import proofs.«120948_j19490561589868_1_alg».proof.Proof.Gen.Pre_finite_inputs
import proofs.«120948_j19490561589868_1_alg».proof.Proof.Spec
import proofs.«120948_j19490561589868_1_alg».proof.Proof.RefValue
import proofs.«120948_j19490561589868_1_alg».proof.Proof.PayValue
import proofs.«120948_j19490561589868_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result at `batched` of the arguments: the kernel by its run read as a value, the
    reference by its last stage read at an index and the mask law; the arguments agree by hypothesis. -/
theorem algebraic : Cert.algebraic_KernelIdeal_ReferenceIdeal := by
  intro m ρ m' ρ' _ hagree
  refine ⟨fun c => Cert.LogFloor.batched (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
